-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S1024x1024 : Shape := ⟨2, ![1024, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S128x1024 .f32) (main_arg1 : FVec F S128x1024 .f32) (main_arg2 : FVec F S1024x1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S128x1024 : Shape := ⟨2, ![128, 1024]⟩
abbrev S1024x1024 : Shape := ⟨2, ![1024, 1024]⟩
abbrev S128x256 : Shape := ⟨2, ![128, 256]⟩
abbrev S256x256 : Shape := ⟨2, ![256, 256]⟩

abbrev nBuf : Space → Nat
  | .hbm => 4
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1024x1024, .f32⟩
  | .hbm, ⟨3, _⟩ => ⟨S1024x1024, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S128x256_S128x256_0_0 : ∀ a, (![0, 0] : Fin 2 → Nat) a + S128x256.size a ≤ S128x256.size a
  h_S128x256 : 0 < S128x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  dot_S128x256_S128x256_S256x256_0_0_1_1_n_n_wf : DotDims.WF S128x256 S128x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S128x1024.size a
  hwx0_0 : ∀ i : grid0.Coords, EltTy.bits .f32 = 32 ∨ (Rect.block (s := S128x1024) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x1024.size a
  hwx0_1 : ∀ i : grid0.Coords, EltTy.bits .f32 = 32 ∨ (Rect.block (s := S128x1024) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S1024x1024.size a
  hwx0_2 : ∀ i : grid0.Coords, EltTy.bits .f32 = 32 ∨ (Rect.block (s := S1024x1024) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S1024x1024.size a
  hwx0_3 : ∀ i : grid0.Coords, EltTy.bits .f32 = 32 ∨ (Rect.block (s := S1024x1024) S256x256.size (cc0_transform_3 i) (hinb0_3 i)).WholeWords (EltTy.packing .f32)

variable [Facts₀]

def dot_S128x256_S128x256_S256x256_0_0_1_1_n_n : DotDims S128x256 S128x256 S256x256 where
  lhsContracting := [0]
  rhsContracting := [0]
  lhsNonContracting := [1]
  rhsNonContracting := [1]
  lhsBatch := []
  rhsBatch := []
  wf := dot_S128x256_S128x256_S256x256_0_0_1_1_n_n_wf

abbrev win0_0 : Pipeline.Window sig grid0 :=
  Pipeline.Window.ofSpec (Memref.whole main_arg1) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x1024 : Shape := ⟨2, ![128, 1024]⟩
abbrev S1024x1024 : Shape := ⟨2, ![1024, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  dot_S128x1024_S128x1024_S1024x1024_0_0_1_1_n_n_wf : DotDims.WF S128x1024 S128x1024 S1024x1024 [0] [0] [1] [1] [] []

variable [Facts₀]

def dot_S128x1024_S128x1024_S1024x1024_0_0_1_1_n_n : DotDims S128x1024 S128x1024 S1024x1024 where
  lhsContracting := [0]
  rhsContracting := [0]
  lhsNonContracting := [1]
  rhsNonContracting := [1]
  lhsBatch := []
  rhsBatch := []
  wf := dot_S128x1024_S128x1024_S1024x1024_0_0_1_1_n_n_wf

class Facts : Prop extends Facts₀ where

variable [Facts]
-- ==== Proof.HebbSpec.lean ====
/-
  The Hebbian weight update as ONE function of the three argument arrays, index by index on the extended reals,
  and the one law that joins the two programs' forms of the batch mean: a product with 2⁻⁷ is a quotient by 128.

  For postsynaptic neuron p and presynaptic neuron q,
      Δw[p, q] = η · ( (Σ_b post[b, p] · pre[b, q]) · 2⁻⁷  −  λ · w[p, q] ),
  with η and λ the f32 values nearest 0.005 and 0.0001: both programs spell these two by the same binary words, so
  they are never evaluated. Only the batch size is read: the word 0x43000000 denotes 128, the word 0x3C000000 its
  reciprocal, and on every extended real x, infinite ones included, x / 128 = x · (1/128).
-/
import Idealize.ShloMosaic.PureOps.Ideal
import Idealize.ShloMosaic.Lib.ValueIdx

noncomputable section

namespace Cert.Hebbian

open Idealize.ShloMosaic Idealize.ShloMosaic.ValueIdx

/-- Spike arrays: 128 trials by 1024 neurons. -/
abbrev Spikes : Shape := ⟨2, ![128, 1024]⟩
/-- Weight arrays: 1024 postsynaptic by 1024 presynaptic neurons. -/
abbrev Synapses : Shape := ⟨2, ![1024, 1024]⟩

/-- The co-activity of postsynaptic neuron `p` and presynaptic neuron `q`: the sum over the 128 trials of the
    products of their spikes. -/
def coactivity (pre post : Spikes.Idx → EReal) (p q : Fin 1024) : EReal :=
  ∑ b : Fin 128, post (ix2 b p) * pre (ix2 b q)

/-- The weight update: the learning rate times (mean co-activity less the decayed weight), the mean taken as the
    product with 2⁻⁷. -/
def update (pre post : Spikes.Idx → EReal) (w : Synapses.Idx → EReal) : Synapses.Idx → EReal := fun i =>
  Ideal.ofBits .f32 0x3BA3D70A#32
    * (coactivity pre post (i 0) (i 1) * Ideal.ofBits .f32 0x3C000000#32 - Ideal.ofBits .f32 0x38D1B717#32 * w i)

/-- The word 0x43000000 (sign 0, exponent 134, fraction 0) denotes 2⁷ = 128. -/
theorem ofBits_batch : Ideal.ofBits .f32 0x43000000#32 = ((128 : ℝ) : EReal) := by
  simp [Ideal.ofBits, Ideal.ieee, -EReal.coe_mul]; norm_num

/-- The word 0x3C000000 (sign 0, exponent 120, fraction 0) denotes 2⁻⁷ = 1/128 exactly. -/
theorem ofBits_inv_batch : Ideal.ofBits .f32 0x3C000000#32 = ((1 / 128 : ℝ) : EReal) := by
  simp [Ideal.ofBits, Ideal.ieee, -EReal.coe_mul]; norm_num

/-- Dividing by the batch size is multiplying by its reciprocal, on every extended real. -/
theorem div_batch (x : EReal) :
    Ideal.div x (Ideal.ofBits .f32 0x43000000#32) = x * Ideal.ofBits .f32 0x3C000000#32 := by
  rw [ofBits_batch, ofBits_inv_batch, Ideal.div_coe (by norm_num : (128 : ℝ) ≠ 0)]

end Cert.Hebbian

end
-- ==== Proof.HebbBlock.lean ====
/-
  One element of what the kernel body stores, as a function of the three blocks it loads.

  The body loads a [128, 256] block of postsynaptic spikes, a [128, 256] block of presynaptic spikes and a
  [256, 256] block of weights. Its matrix product contracts the TRIAL axis (axis 0) of both spike blocks into a zero
  accumulator, so at (p, q) it is the sum over the 128 trials b of post[b, p] · pre[b, q]; the roundings to bf16
  before the product are the identity on the extended reals. The rest is pointwise: the product with 2⁻⁷, the decayed
  weight subtracted, the learning rate multiplied in.
-/
import proofs.«141115_j56221121904852_1_alg».proof.Proof.Gen.KernelIdeal.Skeleton
import proofs.«141115_j56221121904852_1_alg».proof.Proof.HebbSpec
import Idealize.ShloMosaic.Lib.ValueIdx
import Idealize.ShloMosaic.PureOps.Ideal.Laws

noncomputable section

namespace Cert.Hebbian.Block

open Cert.KernelIdeal Cert.KernelIdeal.Gen Idealize.ShloMosaic Idealize.ShloMosaic.ValueIdx

/-! ## The operand indices of the product, axis by axis -/

/-- The left operand is read along its axis 0 at the contracted trial, -/
theorem lhs_dot_S128x256_S128x256_S256x256_0_0_1_1_n_n_0 (i : S256x256.Idx) (k : dot_S128x256_S128x256_S256x256_0_0_1_1_n_n.contr.Idx) :
    (dot_S128x256_S128x256_S256x256_0_0_1_1_n_n.lhsIdx i k 0).val = (k ⟨0, by decide⟩).val :=
  dot_S128x256_S128x256_S256x256_0_0_1_1_n_n.lhsIdx_val_of_single rfl i k
/-- and along its axis 1 at the output's row: the postsynaptic neuron. -/
theorem lhs_dot_S128x256_S128x256_S256x256_0_0_1_1_n_n_1 (i : S256x256.Idx) (k : dot_S128x256_S128x256_S256x256_0_0_1_1_n_n.contr.Idx) :
    (dot_S128x256_S128x256_S256x256_0_0_1_1_n_n.lhsIdx i k 1).val = (i 0).val := by
  unfold DotDims.lhsIdx
  rw [dif_neg (show ¬(1 : Fin S128x256.rank) ∈ dot_S128x256_S128x256_S256x256_0_0_1_1_n_n.lhsBatch by decide), dif_pos (show (1 : Fin S128x256.rank) ∈ dot_S128x256_S128x256_S256x256_0_0_1_1_n_n.lhsNonContracting by decide)]
  rfl
/-- The right operand is read along its axis 0 at the contracted trial, -/
theorem rhs_dot_S128x256_S128x256_S256x256_0_0_1_1_n_n_0 (i : S256x256.Idx) (k : dot_S128x256_S128x256_S256x256_0_0_1_1_n_n.contr.Idx) :
    (dot_S128x256_S128x256_S256x256_0_0_1_1_n_n.rhsIdx i k 0).val = (k ⟨0, by decide⟩).val :=
  dot_S128x256_S128x256_S256x256_0_0_1_1_n_n.rhsIdx_val_of_single rfl i k
/-- and along its axis 1 at the output's column: the presynaptic neuron. -/
theorem rhs_dot_S128x256_S128x256_S256x256_0_0_1_1_n_n_1 (i : S256x256.Idx) (k : dot_S128x256_S128x256_S256x256_0_0_1_1_n_n.contr.Idx) :
    (dot_S128x256_S128x256_S256x256_0_0_1_1_n_n.rhsIdx i k 1).val = (i 1).val := by
  unfold DotDims.rhsIdx
  rw [dif_neg (show ¬(1 : Fin S128x256.rank) ∈ dot_S128x256_S128x256_S256x256_0_0_1_1_n_n.rhsBatch by decide), dif_pos (show (1 : Fin S128x256.rank) ∈ dot_S128x256_S128x256_S256x256_0_0_1_1_n_n.rhsNonContracting by decide)]
  rfl

/-! ## The product into the zero accumulator -/

/-- At (p, q) the product of two [128, 256] blocks over their trial axes, accumulated into zero, is
    Σ_b a[b, p] · c[b, q]. -/
theorem product_at (a c : FVec Ideal S128x256 .bf16) (p q : Fin 256) :
    matmul dot_S128x256_S128x256_S256x256_0_0_1_1_n_n none a c (constant (F := Ideal) S256x256 .f32 0x00000000#32) (ix2 p q)
      = ∑ b : Fin 128, a (ix2 b p) * c (ix2 b q) := by
  simp only [matmul]
  rw [Ideal.matmul_constant_zero_apply, ← Equiv.sum_comp (contrEquiv1 dot_S128x256_S128x256_S256x256_0_0_1_1_n_n 128 rfl rfl).symm]
  refine Finset.sum_congr rfl fun b _ => ?_
  have hb := contrEquiv1_symm_val dot_S128x256_S128x256_S256x256_0_0_1_1_n_n 128 rfl rfl b
  have el : dot_S128x256_S128x256_S256x256_0_0_1_1_n_n.lhsIdx (ix2 p q) ((contrEquiv1 dot_S128x256_S128x256_S256x256_0_0_1_1_n_n 128 rfl rfl).symm b) = ix2 b p := funext fun d => Fin.ext (by
    match d with
    | ⟨0, _⟩ => exact (lhs_dot_S128x256_S128x256_S256x256_0_0_1_1_n_n_0 _ _).trans hb
    | ⟨1, _⟩ => exact lhs_dot_S128x256_S128x256_S256x256_0_0_1_1_n_n_1 _ _)
  have er : dot_S128x256_S128x256_S256x256_0_0_1_1_n_n.rhsIdx (ix2 p q) ((contrEquiv1 dot_S128x256_S128x256_S256x256_0_0_1_1_n_n 128 rfl rfl).symm b) = ix2 b q := funext fun d => Fin.ext (by
    match d with
    | ⟨0, _⟩ => exact (rhs_dot_S128x256_S128x256_S256x256_0_0_1_1_n_n_0 _ _).trans hb
    | ⟨1, _⟩ => exact rhs_dot_S128x256_S128x256_S256x256_0_0_1_1_n_n_1 _ _)
  rw [el, er]

/-! ## The stored value at an element -/

/-- The body's one stored value at (p, q), over the loaded blocks. -/
theorem payload_at (x0 x1 : Vec Ideal S128x256 .f32) (x2 : Vec Ideal S256x256 .f32) (p q : Fin 256) :
    k0_pay1 (F := Ideal) x0 x1 x2 (ix2 p q)
      = Ideal.ofBits .f32 0x3BA3D70A#32
          * ((∑ b : Fin 128, x0 (ix2 b p) * x1 (ix2 b q)) * Ideal.ofBits .f32 0x3C000000#32
              - Ideal.ofBits .f32 0x38D1B717#32 * x2 (ix2 p q)) := by
  unfold k0_pay1
  exact congrArg (fun s : EReal => Ideal.ofBits .f32 0x3BA3D70A#32
      * (s * Ideal.ofBits .f32 0x3C000000#32 - Ideal.ofBits .f32 0x38D1B717#32 * x2 (ix2 p q)))
    (product_at (truncf .bf16 x0 bitsLt_bf16_f32) (truncf .bf16 x1 bitsLt_bf16_f32) p q)

/-- So wherever the loaded blocks hold the argument arrays' entries for the array index `I` — the postsynaptic
    block's column `p` the spikes of neuron `I 0`, the presynaptic block's column `q` those of neuron `I 1`, the
    weight block's (p, q) the weight at `I` — the stored value is the update at `I`. -/
theorem payload_eq_update (pre post : Spikes.Idx → EReal) (w : Synapses.Idx → EReal)
    (x0 x1 : Vec Ideal S128x256 .f32) (x2 : Vec Ideal S256x256 .f32) (I : Synapses.Idx) (p q : Fin 256)
    (h0 : ∀ b : Fin 128, x0 (ix2 b p) = post (ix2 b (I 0)))
    (h1 : ∀ b : Fin 128, x1 (ix2 b q) = pre (ix2 b (I 1)))
    (h2 : x2 (ix2 p q) = w I) :
    k0_pay1 (F := Ideal) x0 x1 x2 (ix2 p q) = update pre post w I := by
  rw [payload_at, h2]
  simp only [h0, h1]
  rfl

end Cert.Hebbian.Block

end
-- ==== Proof.HebbKernel.lean ====
/-
  From blocks to the array: after the run the kernel's result array IS the Hebbian update of its arguments.

  The grid has 4 × 4 points; point (i, j) reads the postsynaptic spikes of neurons 256·i … 256·i + 255 (all 128
  trials), the presynaptic spikes of neurons 256·j … 256·j + 255, the [256, 256] weight block (i, j), and writes
  back the result block (i, j). So entry (p, q) of the block at (i, j) is the update at (256·i + p, 256·j + q), and
  the sixteen blocks tile the [1024, 1024] array: row r and column s lie in block (r / 256, s / 256).
-/
import proofs.«141115_j56221121904852_1_alg».proof.Proof.Gen.KernelIdeal.Value
import proofs.«141115_j56221121904852_1_alg».proof.Proof.HebbBlock

noncomputable section

namespace Cert.Hebbian.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Every access of the body starts at the origin of its buffer. -/
theorem origin : (![0, 0] : Fin 2 → Nat) = fun _ => 0 := funext fun a => by fin_cases a <;> rfl

/-! ## Which blocks a grid point touches -/

/-- Decided over the sixteen points: both spike windows take every trial (block 0 along axis 0); the postsynaptic
    window's neuron block is the result's row block, the presynaptic window's the result's column block; the weight
    window moves with the result; and the result's block indices stay below 4. -/
theorem block_indices : ∀ t : Fin cfg0.N,
    win0_0.index t (0 : Fin 2) = 0 ∧ win0_0.index t (1 : Fin 2) = win0_3.index t (0 : Fin 2)
    ∧ win0_1.index t (0 : Fin 2) = 0 ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_3.index t (0 : Fin 2) ≤ 3 ∧ win0_3.index t (1 : Fin 2) ≤ 3 :=
  (by decide +kernel : ∀ t : Fin grid0.N, _)

/-- Every one of the 4 × 4 result blocks is some point's. -/
theorem every_block : ∀ (i j : Fin 4), ∃ t : Fin cfg0.N, win0_3.index t = ![i.val, j.val] :=
  (by decide +kernel : ∀ (i j : Fin 4), ∃ t : Fin grid0.N, win0_3.index t = ![i.val, j.val])

/-! ## What a point writes back -/

/-- Point `t` writes back block `t` of the update of the argument arrays. -/
theorem flushed_eq (c : Dev nD) (t : Fin cfg0.N) :
    (dats m 0 c).flushed 3 t
      = ((cfg0.win 3).blk t).view.read (Elt Ideal) (update (V m c main_arg0) (V m c main_arg1) (V m c main_arg2)) := by
  rw [Cert.KernelIdeal.Value.flushed3]
  unfold out0_3
  rw [View.canon_unit_zero origin]
  simp only [View.ld_unit_zero (S := S128x256) origin, View.ld_unit_zero (S := S256x256) origin]
  obtain ⟨e00, e01, e10, e11, e20, e21, -, -⟩ := block_indices t
  funext j
  obtain ⟨p, q, rfl⟩ : ∃ (p q : Fin 256), j = ix2 p q := ⟨j 0, j 1, eq_ix2 j⟩
  show k0_pay1 (iblk m c 0 t) (iblk m c 1 t) (iblk m c 2 t) (ix2 p q)
    = update (V m c main_arg0) (V m c main_arg1) (V m c main_arg2) (((cfg0.win 3).blk t).view.emb (ix2 p q))
  refine Block.payload_eq_update (V m c main_arg0) (V m c main_arg1) (V m c main_arg2) (iblk m c 0 t) (iblk m c 1 t)
    (iblk m c 2 t) (((cfg0.win 3).blk t).view.emb (ix2 p q)) p q ?_ ?_ ?_
  · intro b
    show V m c main_arg1 (((cfg0.win 0).blk t).view.emb (ix2 b p))
      = V m c main_arg1 (ix2 b ((((cfg0.win 3).blk t).view.emb (ix2 p q)) 0))
    refine congrArg _ (funext fun a => Fin.ext ?_)
    match a with
    | ⟨0, _⟩ => show win0_0.index t (0 : Fin 2) * 128 + 1 * b.val = b.val; omega
    | ⟨1, _⟩ => show win0_0.index t (1 : Fin 2) * 256 + 1 * p.val = win0_3.index t (0 : Fin 2) * 256 + 1 * p.val; omega
  · intro b
    show V m c main_arg0 (((cfg0.win 1).blk t).view.emb (ix2 b q))
      = V m c main_arg0 (ix2 b ((((cfg0.win 3).blk t).view.emb (ix2 p q)) 1))
    refine congrArg _ (funext fun a => Fin.ext ?_)
    match a with
    | ⟨0, _⟩ => show win0_1.index t (0 : Fin 2) * 128 + 1 * b.val = b.val; omega
    | ⟨1, _⟩ => show win0_1.index t (1 : Fin 2) * 256 + 1 * q.val = win0_3.index t (1 : Fin 2) * 256 + 1 * q.val; omega
  · show V m c main_arg2 (((cfg0.win 2).blk t).view.emb (ix2 p q))
      = V m c main_arg2 (((cfg0.win 3).blk t).view.emb (ix2 p q))
    refine congrArg _ (funext fun a => Fin.ext ?_)
    match a with
    | ⟨0, _⟩ => show win0_2.index t (0 : Fin 2) * 256 + 1 * p.val = win0_3.index t (0 : Fin 2) * 256 + 1 * p.val; omega
    | ⟨1, _⟩ => show win0_2.index t (1 : Fin 2) * 256 + 1 * q.val = win0_3.index t (1 : Fin 2) * 256 + 1 * q.val; omega

/-! ## The blocks tile the array -/

/-- An index of the array is in point `t`'s block iff each coordinate is in the block's range on its axis. -/
theorem mem_block (t : Fin cfg0.N) (i : S1024x1024.Idx) :
    i ∈ ((cfg0.win 3).blk t).view.set ↔ ∀ a : Fin 2, win0_3.index t a * S256x256.size a ≤ (i a).val
      ∧ (i a).val < win0_3.index t a * S256x256.size a + S256x256.size a := by
  show i ∈ ((View.whole main_v0).slice (win0_3.rect t)).set ↔ _
  rw [View.set_slice_whole, Rect.mem_set_unit]
  exact Iff.rfl

/-- Row r and column s lie in the block (r / 256, s / 256), which some point writes back. -/
theorem covered (i : S1024x1024.Idx) :
    ∃ t : Fin cfg0.N, (cfg0.win 3).flush t = true ∧ i ∈ ((cfg0.win 3).blk t).view.set := by
  have hi0 : (i 0).val < 1024 := (i 0).isLt
  have hi1 : (i 1).val < 1024 := (i 1).isLt
  obtain ⟨t, ht⟩ := every_block ⟨(i 0).val / 256, by omega⟩ ⟨(i 1).val / 256, by omega⟩
  have q0 : win0_3.index t (0 : Fin 2) = (i 0).val / 256 := congrFun ht 0
  have q1 : win0_3.index t (1 : Fin 2) = (i 1).val / 256 := congrFun ht 1
  refine ⟨t, flush0_3 t, ?_⟩
  rw [mem_block]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 256 ≤ (i 1).val ∧ (i 1).val < win0_3.index t (1 : Fin 2) * 256 + 256; omega

/-! ## The array after the run -/

/-- The result array after the last point is the update of the argument arrays as launched. -/
theorem final (c : Dev nD) :
    (dats m 0 c).arrAt 3 cfg0.N
      = update (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run: every weakly fair execution ends with the result array at the update of the arguments, the
    arguments unchanged. -/
theorem run : θ_run defs (onTc (τ := τ) (main (F := Ideal))) ⟨m, fun _ => 0, ρ⟩ fun r => ∀ c : Dev nD,
      r.2.mem ((c : Thread nD τ).loc main_v0)
        = update (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Hebbian.Kernel

end
-- ==== Proof.HebbReference.lean ====
/-
  The reference's result, read one operation at a time at an index, is the Hebbian update of its arguments:
  the host's dot_general over the trial axis is the co-activity sum, its quotient by 128 the product with 2⁻⁷,
  and the rest — the decayed weight subtracted, the learning rate multiplied in — is spelt alike on both sides.
-/
import proofs.«141115_j56221121904852_1_alg».proof.Proof.Gen.ReferenceIdeal.Read
import proofs.«141115_j56221121904852_1_alg».proof.Proof.HebbSpec

noncomputable section

namespace Cert.Hebbian.Reference

open Cert.ReferenceIdeal Cert.ReferenceIdeal.Read Idealize.ShloMosaic Idealize.ShloMosaic.ValueIdx

/-- The left operand of the contraction is read at (trial, postsynaptic neuron). -/
theorem post_index (i : S1024x1024.Idx) (b : Fin 128) : lidx_main_v0 i b = ix2 b (i 0) :=
  funext fun a => by match a with | ⟨0, _⟩ => rfl | ⟨1, _⟩ => rfl

/-- The right operand of the contraction is read at (trial, presynaptic neuron). -/
theorem pre_index (i : S1024x1024.Idx) (b : Fin 128) : ridx_main_v0 i b = ix2 b (i 1) :=
  funext fun a => by match a with | ⟨0, _⟩ => rfl | ⟨1, _⟩ => rfl

/-- The last stage of the reference, as a function of its three arguments, is the update. -/
theorem stage_eq_update (pre post : (⟨S128x1024, .f32⟩ : BufTy).Contents (Elt Ideal))
    (w : (⟨S1024x1024, .f32⟩ : BufTy).Contents (Elt Ideal)) :
    val_main_v7 (F := Ideal) pre post w = update pre post w := by
  funext i
  rw [val_main_v7_apply, val_main_v6_apply, val_main_cst_1_apply, val_main_v5_apply, val_main_v2_apply,
    val_main_v0_apply, val_main_v1_apply, val_main_cst_apply, val_main_v4_apply, val_main_v3_apply,
    val_main_cst_0_apply]
  simp only [post_index, pre_index, Ideal.mulf_def, Ideal.subf_def, Ideal.hostDivf_def, Ideal.ofBits_def, div_batch]
  rfl

end Cert.Hebbian.Reference

end
-- ==== Proof.lean ====
/-
  A Hebbian weight update over 128 trials, 1024 postsynaptic and 1024 presynaptic neurons:

      Δw[p, q] = η · ( (Σ_b post[b, p] · pre[b, q]) / 128  −  λ · w[p, q] ).

  The kernel tiles the [1024, 1024] result into sixteen [256, 256] blocks; for each it contracts the trial axis of
  a postsynaptic and a presynaptic spike block in one matrix product (operands rounded to bf16, accumulated from
  zero), takes the mean as a product with 2⁻⁷, subtracts the decayed weight block and scales by the learning rate.
  The reference contracts the whole arrays on the host, divides by 128, and finishes with the same two steps, the
  constants η and λ spelt by the same binary words.

  On the extended reals the roundings are the identity, a matrix product into zero and the host's contraction are
  the same sum over the trials, and x / 128 = x · 2⁻⁷ for every x (infinite values included), so both programs
  compute the function `Cert.Hebbian.update` of their arguments, index by index, and no finiteness of the inputs is
  used. The idealization rewrote nothing, so the sanctioned-idealization claim is `True`.

  The three frames: the kernel's at both instances from its run over the pipeline (every point's body loads its
  three blocks and stores its result block whole); the reference's from its host run with the result dropped.
-/
import proofs.«141115_j56221121904852_1_alg».proof.Defs
import proofs.«141115_j56221121904852_1_alg».proof.Proof.Gen.Kernel
import proofs.«141115_j56221121904852_1_alg».proof.Proof.Gen.Kernel.Frame
import proofs.«141115_j56221121904852_1_alg».proof.Proof.Gen.KernelIdeal
import proofs.«141115_j56221121904852_1_alg».proof.Proof.Gen.KernelIdeal.Frame
import proofs.«141115_j56221121904852_1_alg».proof.Proof.Gen.ReferenceIdeal
import proofs.«141115_j56221121904852_1_alg».proof.Proof.Gen.ReferenceIdeal.Run
import proofs.«141115_j56221121904852_1_alg».proof.Proof.Gen.Pre_finite_inputs
import proofs.«141115_j56221121904852_1_alg».proof.Proof.HebbKernel
import proofs.«141115_j56221121904852_1_alg».proof.Proof.HebbReference
import Idealize.ShloMosaic.Adequacy
import Idealize.ShloMosaic.Init

noncomputable section

namespace Cert.Proof

open Idealize.ShloMosaic Idealize.ShloMosaic.TcCoe Idealize.SL.Sem

/-- The kernel as printed terminates without a fault and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is eleven host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten for the ideal reading. -/
theorem preserves : Cert.preserves_Kernel_KernelIdeal := trivial

/-- From memories that agree on the three arguments, the kernel's result array ends at the update of its arguments
    (the sixteen blocks tile it) and the reference's at the same function of the same arrays (its last stage, read
    one operation at a time). -/
theorem algebraic : Cert.algebraic_KernelIdeal_ReferenceIdeal := by
  intro m ρ m' ρ' _ hagree
  refine ⟨_, Cert.Hebbian.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v7_eq _ _ _).trans (Cert.Hebbian.Reference.stage_eq_update _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
